-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x20000 .f32) (main_arg1 : FVec F S2000000 .f32) (main_arg2 : FVec F S4096 .f32) (main_arg3 : IVec S2000000x2 32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S20000x4096 : Shape := ⟨2, ![20000, 4096]⟩
abbrev S2000000x1 : Shape := ⟨2, ![2000000, 1]⟩
abbrev S2048x20480 : Shape := ⟨2, ![2048, 20480]⟩
abbrev S20480x4096 : Shape := ⟨2, ![20480, 4096]⟩
abbrev S1x4096 : Shape := ⟨2, ![1, 4096]⟩
abbrev S2048x4096 : Shape := ⟨2, ![2048, 4096]⟩
abbrev S512x2560 : Shape := ⟨2, ![512, 2560]⟩
abbrev S2560x1024 : Shape := ⟨2, ![2560, 1024]⟩
abbrev S1x1024 : Shape := ⟨2, ![1, 1024]⟩
abbrev S512x1024 : Shape := ⟨2, ![512, 1024]⟩

abbrev nBuf : Space → Nat
  | .hbm => 38
  | .vmem => 9
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S_, .f32⟩
  | .hbm, ⟨5, _⟩ => ⟨S20000x4096, .f32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20000x4096, .f32⟩
  | .hbm, ⟨28, _⟩ => ⟨S_, .i32⟩
  | .hbm, ⟨29, _⟩ => ⟨S_, .f32⟩
  | .hbm, ⟨30, _⟩ => ⟨S2048x20480, .f32⟩
  | .hbm, ⟨31, _⟩ => ⟨S_, .i32⟩
  | .hbm, ⟨32, _⟩ => ⟨S_, .f32⟩
  | .hbm, ⟨33, _⟩ => ⟨S20480x4096, .f32⟩
  | .hbm, ⟨34, _⟩ => ⟨S2048x20480, .bf16⟩
  | .hbm, ⟨35, _⟩ => ⟨S20480x4096, .bf16⟩
  | .hbm, ⟨36, _⟩ => ⟨S1x4096, .f32⟩
  | .hbm, ⟨37, _⟩ => ⟨S2048x4096, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_c_4 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S20000x4096 : S_.BroadcastsInDim S20000x4096 (![] : Fin 0 → Fin S20000x4096.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  pads_S2048x20000_S2048x20480_000_04800 : S2048x20000.Pads (![0, 0] : Fin 2 → Nat) ![0, 480] ![0, 0] S2048x20480
  h_S_ : 0 < S_.numel
  pads_S20000x4096_S20480x4096_04800_000 : S20000x4096.Pads (![0, 0] : Fin 2 → Nat) ![480, 0] ![0, 0] S20480x4096
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S20000x4096_S2000000x2_S2000000_n_01_01_1_wf : ScatterDims.WF S20000x4096 S2000000x2 S2000000 [] [0, 1] [0, 1] 1
  dot_S512x2560_S2560x1024_S512x1024_1_0_0_1_n_n_wf : DotDims.WF S512x2560 S2560x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2560.size a ≤ S2048x20480.size a
  hwx0_0 : ∀ i : grid0.Coords, EltTy.bits .bf16 = 32 ∨ (Rect.block (s := S2048x20480) S512x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S20480x4096.size a
  hwx0_1 : ∀ i : grid0.Coords, EltTy.bits .bf16 = 32 ∨ (Rect.block (s := S20480x4096) S2560x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .f32 = 32 ∨ (Rect.block (s := S2048x4096) S512x1024.size (cc0_transform_3 i) (hinb0_3 i)).WholeWords (EltTy.packing .f32)

variable [Facts₀]

def scatter_S20000x4096_S2000000x2_S2000000_n_01_01_1 : ScatterDims S20000x4096 S2000000x2 S2000000 where
  updateWindowDims := []
  insertedWindowDims := [0, 1]
  scatterDimsToOperandDims := [0, 1]
  indexVectorDim := 1
  wf := scatter_S20000x4096_S2000000x2_S2000000_n_01_01_1_wf
def dot_S512x2560_S2560x1024_S512x1024_1_0_0_1_n_n : DotDims S512x2560 S2560x1024 S512x1024 where
  lhsContracting := [1]
  rhsContracting := [0]
  lhsNonContracting := [0]
  rhsNonContracting := [1]
  lhsBatch := []
  rhsBatch := []
  wf := dot_S512x2560_S2560x1024_S512x1024_1_0_0_1_n_n_wf

abbrev win0_0 : Pipeline.Window sig grid0 :=
  Pipeline.Window.ofSpec (Memref.whole main_v21) S512x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S20000x4096 : Shape := ⟨2, ![20000, 4096]⟩
abbrev S2000000x1 : Shape := ⟨2, ![2000000, 1]⟩
abbrev S2048x4096 : Shape := ⟨2, ![2048, 4096]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S_, .f32⟩
  | .hbm, ⟨5, _⟩ => ⟨S20000x4096, .f32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20000x4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .i1⟩
  | .hbm, ⟨35, _⟩ => ⟨S_, .f32⟩
  | .hbm, ⟨36, _⟩ => ⟨S2048x4096, .f32⟩
  | .hbm, ⟨37, _⟩ => ⟨S2048x4096, .i1⟩
  | .hbm, ⟨38, _⟩ => ⟨S_, .f32⟩
  | .hbm, ⟨39, _⟩ => ⟨S_, .f32⟩
  | .hbm, ⟨40, _⟩ => ⟨S2048x4096, .f32⟩
  | .hbm, ⟨41, _⟩ => ⟨S2048x4096, .f32⟩
  | .hbm, ⟨42, _⟩ => ⟨S2048x4096, .f32⟩
  | .hbm, ⟨43, _⟩ => ⟨S_, .f32⟩
  | .hbm, ⟨44, _⟩ => ⟨S2048x4096, .f32⟩
  | .hbm, ⟨45, _⟩ => ⟨S2048x4096, .f32⟩
  | .hbm, ⟨46, _⟩ => ⟨S2048x4096, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_cst_1 : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_v4 : Ref sig .tc := ⟨.hbm, 41, rfl⟩
abbrev main_call0_v5 : Ref sig .tc := ⟨.hbm, 42, rfl⟩
abbrev main_call0_cst_2 : Ref sig .tc := ⟨.hbm, 43, rfl⟩
abbrev main_call0_v6 : Ref sig .tc := ⟨.hbm, 44, rfl⟩
abbrev main_call0_v7 : Ref sig .tc := ⟨.hbm, 45, rfl⟩
abbrev main_v23 : Ref sig .tc := ⟨.hbm, 46, rfl⟩

abbrev nD : Nat := 1
abbrev τ : Topo := Topo.v7x

variable {F : FTy → Type} [FloatOps F]

class Facts₀ : Prop where
  bcast_S_S20000x4096 : S_.BroadcastsInDim S20000x4096 (![] : Fin 0 → Fin S20000x4096.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  scatter_S20000x4096_S2000000x2_S2000000_n_01_01_1_wf : ScatterDims.WF S20000x4096 S2000000x2 S2000000 [] [0, 1] [0, 1] 1
  dot_S2048x20000_S20000x4096_S2048x4096_1_0_0_1_n_n_wf : DotDims.WF S2048x20000 S20000x4096 S2048x4096 [1] [0] [0] [1] [] []

variable [Facts₀]

def scatter_S20000x4096_S2000000x2_S2000000_n_01_01_1 : ScatterDims S20000x4096 S2000000x2 S2000000 where
  updateWindowDims := []
  insertedWindowDims := [0, 1]
  scatterDimsToOperandDims := [0, 1]
  indexVectorDim := 1
  wf := scatter_S20000x4096_S2000000x2_S2000000_n_01_01_1_wf
def dot_S2048x20000_S20000x4096_S2048x4096_1_0_0_1_n_n : DotDims S2048x20000 S20000x4096 S2048x4096 where
  lhsContracting := [1]
  rhsContracting := [0]
  lhsNonContracting := [0]
  rhsNonContracting := [1]
  lhsBatch := []
  rhsBatch := []
  wf := dot_S2048x20000_S20000x4096_S2048x4096_1_0_0_1_n_n_wf

class Facts : Prop extends Facts₀ where

variable [Facts]
-- ==== Proof.KernelPieces.lean ====
/-
  What one call of the kernel body leaves behind, as values of what it loaded.

  The body keeps a 512 × 1024 accumulator between the points of the contraction axis. At a point it
    * first clears the accumulator, if the point is the first of its run of eight;
    * adds to it the product of the point's 512 × 2560 block of the left operand and its 2560 × 1024 block of the
      right operand;
    * and, if the point is the last of its run, writes  elu (accumulator + bias row)  to the output block.
  So with `step acc x y := acc + x · y` (the payload of the accumulator's store) the accumulator after a first point
  is `step 0 x y`, after any other point `step acc x y` of what the point before left, and the output block written at
  a last point is the payload of the output's store applied to that new accumulator and the bias block.
-/
import proofs.«139215_j9337258902417_1_alg».proof.Proof.Gen.KernelIdeal.Value
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A first point of a run that is not also its last: the accumulator is cleared, then the product is added. -/
theorem acc_first (c : Dev nD) (i : grid0.Coords) (arg3 : Memref sig .tc .vmem S512x2560 .bf16) (harg3 : arg3.IsWhole) (arg4 : Memref sig .tc .vmem S2560x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x2560 .bf16) (x1 : Vec F S2560x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S512x2560) hz,
    View.ld_unit_zero (S := S2560x1024) hz]

/-- A middle point: the product is added to what the point before left. -/
theorem acc_middle (c : Dev nD) (i : grid0.Coords) (arg3 : Memref sig .tc .vmem S512x2560 .bf16) (harg3 : arg3.IsWhole) (arg4 : Memref sig .tc .vmem S2560x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x2560 .bf16) (x1 : Vec F S2560x1024 .bf16) (x2 : Vec F S1x1024 .f32) (xs0 : Vec F S512x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S512x2560) hz,
    View.ld_unit_zero (S := S2560x1024) hz, View.ld_unit_zero (S := S512x1024) hz]

/-- A last point: the same for the accumulator, -/
theorem acc_last (c : Dev nD) (i : grid0.Coords) (arg3 : Memref sig .tc .vmem S512x2560 .bf16) (harg3 : arg3.IsWhole) (arg4 : Memref sig .tc .vmem S2560x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x2560 .bf16) (x1 : Vec F S2560x1024 .bf16) (x2 : Vec F S1x1024 .f32) (xs0 : Vec F S512x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S512x2560) hz,
    View.ld_unit_zero (S := S2560x1024) hz, View.ld_unit_zero (S := S512x1024) hz]

/-- and the output block is the output store's payload of the new accumulator and the bias block. -/
theorem out_last (c : Dev nD) (i : grid0.Coords) (arg3 : Memref sig .tc .vmem S512x2560 .bf16) (harg3 : arg3.IsWhole) (arg4 : Memref sig .tc .vmem S2560x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x2560 .bf16) (x1 : Vec F S2560x1024 .bf16) (x2 : Vec F S1x1024 .f32) (xs0 : Vec F S512x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S512x1024) _ hz, View.readAt_eq_ld, harg3.read_unread, harg4.read_unread, harg5.read_unread,
    harg7.read_unread, View.ld_unit_zero (S := S512x2560) hz, View.ld_unit_zero (S := S2560x1024) hz,
    View.ld_unit_zero (S := S512x1024) hz, View.ld_unit_zero (S := S1x1024) hz]

end Cert.KernelIdeal.Pieces

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Spec.lean ====
/-
  The function both programs compute, entry by entry, over the extended reals:

      out[p, q] = elu( (∑ k < 20000, A[p, k] · W[k, q]) + b[q] ),      elu z = z if z > 0, else exp z − 1,

  for a 2048 × 20000 matrix A, a 20000 × 4096 matrix W and a bias row b of 4096 entries, together with the two facts
  about finite sums that join a contraction split into eight tiles of 2560 over a zero-padded axis of 20480 with the
  plain contraction over 20000: the sum over the padded axis drops the padding (every padded product is 0), and the
  sum tile by tile is the sum over the whole padded axis. Neither asks a term to be finite.
-/
import Idealize.ShloMosaic.PureOps.Ideal.Laws
import Idealize.ShloMosaic.Lib.ValueIdx
import Mathlib.Algebra.BigOperators.Fin
import proofs.«139215_j9337258902417_1_alg».proof.Proof.LibTileSums

noncomputable section

namespace Cert.DenseElu

open Idealize.ShloMosaic Idealize.ShloMosaic.ValueIdx
open scoped BigOperators

/-- The exponential linear unit on the extended reals: the identity above zero, `exp z − 1` elsewhere. -/
def elu (z : EReal) : EReal := Scalar.select (Ideal.cmp .ogt z 0) z (Ideal.exp z - 1)

/-- Entry `(p, q)` of `elu (A · W + b)`. -/
def entry (A : FVec Ideal ⟨2, ![2048, 20000]⟩ .f32) (W : FVec Ideal ⟨2, ![20000, 4096]⟩ .f32)
    (b : FVec Ideal ⟨1, ![4096]⟩ .f32) (p : Fin 2048) (q : Fin 4096) : EReal :=
  elu ((∑ k : Fin 20000, A (ix2 p k) * W (ix2 k q)) + b (ix1 q))

/-- The whole result array. -/
def out (A : FVec Ideal ⟨2, ![2048, 20000]⟩ .f32) (W : FVec Ideal ⟨2, ![20000, 4096]⟩ .f32)
    (b : FVec Ideal ⟨1, ![4096]⟩ .f32) : FVec Ideal ⟨2, ![2048, 4096]⟩ .f32 :=
  fun j => entry A W b (j 0) (j 1)

theorem out_apply (A : FVec Ideal ⟨2, ![2048, 20000]⟩ .f32) (W : FVec Ideal ⟨2, ![20000, 4096]⟩ .f32)
    (b : FVec Ideal ⟨1, ![4096]⟩ .f32) (p : Fin 2048) (q : Fin 4096) : out A W b (ix2 p q) = entry A W b p q := rfl

/-- A sum over `a + b` positions whose last `b` terms vanish is the sum over the first `a`. -/
theorem sum_padded {a b n : ℕ} (h : a + b = n) (f : Fin n → EReal) (hz : ∀ k : Fin n, a ≤ k.val → f k = 0) :
    ∑ k : Fin n, f k = ∑ k : Fin a, f ⟨k.val, by have := k.isLt; omega⟩ := by
  subst h
  have h2 : ∑ j : Fin b, f (Fin.natAdd a j) = 0 := Finset.sum_eq_zero fun j _ => hz _ (by simp)
  rw [Fin.sum_univ_add, h2, add_zero]
  rfl

/-- Eight tiles of 2560 over an axis of 20480 whose positions from 20000 on carry zero terms: the tile sums add up
    to the sum over the first 20000 positions. -/
theorem sum_tiles_padded (f : Fin 20480 → EReal) (hz : ∀ k : Fin 20480, 20000 ≤ k.val → f k = 0) :
    ∑ t : Fin 8, ∑ l : Fin 2560, f ⟨t.val * 2560 + l.val, Cert.LibTileSums.tile_lt (by norm_num) t l⟩
      = ∑ k : Fin 20000, f ⟨k.val, by have := k.isLt; omega⟩ := by
  rw [Cert.LibTileSums.sum_tiles (A := 8) (B := 2560) (n := 20480) (by norm_num) f]
  exact sum_padded (a := 20000) (b := 480) (by norm_num) f hz

end Cert.DenseElu

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.KernelEntries.lean ====
/-
  The body's three stored values, entry by entry, over the extended reals.

    * the cleared accumulator is 0 everywhere;
    * one step of the accumulator at (p, q) is   acc(p, q) + ∑ l < 2560, x(p, l) · y(l, q)
      (a matrix product into a zero splat is the plain sum of products; a change of float format is the identity);
    * the output block at (p, q) is   elu (acc(p, q) + bias(0, q)) :  the bias row is laid over the 512 rows, the
      comparison with 0, the exponential, the subtraction of 1 and the choice between the two branches are entrywise.
-/
import proofs.«139215_j9337258902417_1_alg».proof.Proof.Gen.KernelIdeal.Skeleton
import proofs.«139215_j9337258902417_1_alg».proof.Proof.Spec
import proofs.«139215_j9337258902417_1_alg».proof.Proof.LibKeepdims
import Idealize.ShloMosaic.Lib.ValueIdx
import Idealize.ShloMosaic.Lib.Pipeline.Value

noncomputable section

namespace Cert.KernelIdeal.Entries

open Cert.KernelIdeal Cert.KernelIdeal.Gen Idealize.ShloMosaic Idealize.ShloMosaic.ValueIdx
open scoped BigOperators

/-- The float pattern of 1.0 is the extended real 1. -/
theorem ofBits_one : Ideal.ofBits .f32 0x3F800000#32 = 1 := by
  simp [Ideal.ofBits, Ideal.ieee, -EReal.coe_mul]; norm_num

/-- The cleared accumulator. -/
theorem cleared_apply (p : Fin 512) (q : Fin 1024) : k0_pay1 (F := Ideal) (ix2 p q) = 0 := by
  unfold k0_pay1
  rw [shapeCast_self]
  exact Ideal.ofBits_zero_f32

/-- One step of the accumulator. -/
theorem step_apply (acc : Vec Ideal S512x1024 .f32) (x : Vec Ideal S512x2560 .bf16) (y : Vec Ideal S2560x1024 .bf16)
    (p : Fin 512) (q : Fin 1024) :
    k0_pay2 acc x y (ix2 p q) = acc (ix2 p q) + ∑ l : Fin 2560, x (ix2 p l) * y (ix2 l q) := by
  unfold k0_pay2
  simp only [shapeCast_self]
  refine congrArg (acc (ix2 p q) + ·) ?_
  exact Cert.LibKeepdims.matmul_plain_apply dot_S512x2560_S2560x1024_S512x1024_1_0_0_1_n_n rfl none x y p q

/-- The bias row laid over the rows of the block. -/
theorem biasRows_apply (bv : Vec Ideal S1x1024 .f32) (p : Fin 512) (q : Fin 1024) :
    broadcastTo S512x1024 bv broadcasts_S1x1024_S512x1024 (ix2 p q) = bv (ix2 (0 : Fin 1) q) := by
  refine broadcastTo_apply bv broadcasts_S1x1024_S512x1024 (ix2 p q) (ix2 (0 : Fin 1) q) fun ax => ?_
  match ax with
  | ⟨0, _⟩ => rfl
  | ⟨1, _⟩ => rfl

/-- The output block. -/
theorem finish_apply (acc : Vec Ideal S512x1024 .f32) (bv : Vec Ideal S1x1024 .f32) (p : Fin 512) (q : Fin 1024) :
    k0_pay3 acc bv (ix2 p q) = Cert.DenseElu.elu (acc (ix2 p q) + bv (ix2 (0 : Fin 1) q)) := by
  unfold k0_pay3
  simp only [shapeCast_self]
  have hb := biasRows_apply bv p q
  show Scalar.select (Ideal.cmp .ogt (acc (ix2 p q) + broadcastTo S512x1024 bv broadcasts_S1x1024_S512x1024 (ix2 p q)) (Ideal.ofBits .f32 0x00000000#32))
      (acc (ix2 p q) + broadcastTo S512x1024 bv broadcasts_S1x1024_S512x1024 (ix2 p q))
      (Ideal.exp (acc (ix2 p q) + broadcastTo S512x1024 bv broadcasts_S1x1024_S512x1024 (ix2 p q)) - Ideal.ofBits .f32 0x3F800000#32) = _
  rw [hb, Ideal.ofBits_zero_f32, ofBits_one]
  rfl

end Cert.KernelIdeal.Entries

end
-- ==== Proof.KernelArrays.lean ====
/-
  The three arrays the launch reads, as the host operations before it leave them, as functions of the arguments:

    * the left operand is `inputs` with 480 zero columns appended (20000 → 20480), its format narrowed;
    * the right operand is the dense weight matrix (`weights`, kept as one function of `kernel_vector` and
      `nonzero_ind`) with 480 zero rows appended, its format narrowed;
    * the bias row is `bias` re-laid as a 1 × 4096 matrix.

  Over the extended reals a change of format is the identity and the padding value, the integer 0 converted, is 0; so
  entry (r, k) of the left operand is inputs(r, k) for k < 20000 and 0 beyond, and likewise for the right operand.
-/
import proofs.«139215_j9337258902417_1_alg».proof.Proof.Gen.KernelIdeal.Frame
import Idealize.ShloMosaic.Lib.StableHlo.Run
import Idealize.ShloMosaic.Lib.KernelVsHost
import Idealize.ShloMosaic.Lib.ValueIdx
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The dense 20000 × 4096 weight matrix as the program builds it before the launch: both index columns are cut
    out of `idx`, a negative index is moved up by the extent of its axis, the columns are joined again, and the
    entries of `u` are added into a zero matrix at those positions (entries that share a position accumulate). -/
def weights (u : FVec F S2000000 .f32) (idx : IVec S2000000x2 32) : FVec F S20000x4096 .f32 :=
  Host.scatterAdd scatter_S20000x4096_S2000000x2_S2000000_n_01_01_1
    (broadcastInDim S20000x4096 ![] bcast_S_S20000x4096 (constant S_ .f32 0x00000000#32))
    (concatenate S2000000x2 1
      [⟨S2000000x1, broadcastInDim S2000000x1 ![0] bcast_S2000000_S2000000x1_0
          (select
            (cmpi .slt (shapeCast S2000000 (extractStridedSlice S2000000x1 ![0, 0] idx slices_S2000000x2_S2000000x1_0_0) shapeCasts_S2000000x1_S2000000)
              (broadcastInDim S2000000 ![] bcast_S_S2000000 (constantI S_ 32 0#32)))
            (addi (shapeCast S2000000 (extractStridedSlice S2000000x1 ![0, 0] idx slices_S2000000x2_S2000000x1_0_0) shapeCasts_S2000000x1_S2000000)
              (broadcastInDim S2000000 ![] bcast_S_S2000000 (constantI S_ 32 20000#32)))
            (shapeCast S2000000 (extractStridedSlice S2000000x1 ![0, 0] idx slices_S2000000x2_S2000000x1_0_0) shapeCasts_S2000000x1_S2000000))⟩,
       ⟨S2000000x1, broadcastInDim S2000000x1 ![0] bcast_S2000000_S2000000x1_0
          (select
            (cmpi .slt (shapeCast S2000000 (extractStridedSlice S2000000x1 ![0, 1] idx slices_S2000000x2_S2000000x1_0_1) shapeCasts_S2000000x1_S2000000)
              (broadcastInDim S2000000 ![] bcast_S_S2000000 (constantI S_ 32 0#32)))
            (addi (shapeCast S2000000 (extractStridedSlice S2000000x1 ![0, 1] idx slices_S2000000x2_S2000000x1_0_1) shapeCasts_S2000000x1_S2000000)
              (broadcastInDim S2000000 ![] bcast_S_S2000000 (constantI S_ 32 4096#32)))
            (shapeCast S2000000 (extractStridedSlice S2000000x1 ![0, 1] idx slices_S2000000x2_S2000000x1_0_1) shapeCasts_S2000000x1_S2000000))⟩]
      concatenates_S2000000x1_S2000000x1_S2000000x2_d1)
    u

/-- Running two lines of host operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxHeartbeats 1600000 in
/-- After the first stretch of host operations the scatter's result buffer holds `weights` of the two arguments it reads. -/
theorem weights_eq (V : Valuation τ sig (Elt F)) :
    after hostOps0 V (Proc.devRef .tc main_v18) = weights (V (Proc.devRef .tc main_arg1)) (V (Proc.devRef .tc main_arg3)) := by
  after_results
  rfl

variable (m : (ℓ : Loc nD τ sig) → Buf (Elt F) ℓ)

/-- The left operand at the launch. -/
theorem lhs_eq (c : Dev nD) :
    (Gen.V m c main_v21 : S2048x20480.Idx → F .bf16)
      = truncf .bf16 (pad S2048x20480 ![0, 0] ![0, 480] ![0, 0] (m ((c : Thread nD τ).loc main_arg0))
          (sitofp (F := F) .f32 (constantI S_ 32 0#32)) pads_S2048x20000_S2048x20480_000_04800 h_S_) bitsLt_bf16_f32 := by
  dsimp only [Gen.V]
  simp only [hostOps0, hostOps0_1, hostOps0_2, hostOps0_3, hostOps0_4, List.flatten_cons, List.flatten_nil, List.append_nil, List.cons_append, List.nil_append]
  after_results
  rfl

/-- The bias row at the launch. -/
theorem bias_eq (c : Dev nD) :
    (Gen.V m c main_v23 : S1x4096.Idx → F .f32) = shapeCast S1x4096 (m ((c : Thread nD τ).loc main_arg2)) shapeCasts_S4096_S1x4096 := by
  dsimp only [Gen.V]
  simp only [hostOps0, hostOps0_1, hostOps0_2, hostOps0_3, hostOps0_4, List.flatten_cons, List.flatten_nil, List.append_nil, List.cons_append, List.nil_append]
  after_results
  rfl

/-- The right operand at the launch. -/
theorem rhs_eq (c : Dev nD) :
    (Gen.V m c main_v22 : S20480x4096.Idx → F .bf16)
      = truncf .bf16 (pad S20480x4096 ![0, 0] ![480, 0] ![0, 0]
          (weights (m ((c : Thread nD τ).loc main_arg1)) (m ((c : Thread nD τ).loc main_arg3)))
          (sitofp (F := F) .f32 (constantI S_ 32 0#32)) pads_S20000x4096_S20480x4096_04800_000 h_S_) bitsLt_bf16_f32 := by
  dsimp only [Gen.V]
  rw [show List.flatten [(hostOps0 : List (HloOp τ sig (Elt F))), hostOps0_1, hostOps0_2, hostOps0_3, hostOps0_4]
      = hostOps0 ++ (hostOps0_1 ++ (hostOps0_2 ++ (hostOps0_3 ++ hostOps0_4))) from by
        simp only [List.flatten_cons, List.flatten_nil, List.append_nil], after_append]
  have hw := weights_eq (F := F) (fun b => m (c, b))
  generalize after hostOps0 (fun b => m (c, b)) = W0 at hw ⊢
  simp only [hostOps0_1, hostOps0_2, hostOps0_3, hostOps0_4, List.cons_append, List.nil_append]
  after_results
  refine Eq.trans (b := truncf .bf16 (pad S20480x4096 ![0, 0] ![480, 0] ![0, 0] (W0 (Proc.devRef .tc main_v18))
      (sitofp (F := F) .f32 (constantI S_ 32 0#32)) pads_S20000x4096_S20480x4096_04800_000 h_S_) bitsLt_bf16_f32) rfl ?_
  rw [hw]

/-! ## The three arrays entry by entry, over the extended reals -/

section AtIdeal

variable (mi : (ℓ : Loc nD τ sig) → Buf (Elt Ideal) ℓ)

/-- The padding value: the integer 0 converted is the extended real 0. -/
theorem padValue : (sitofp (F := Ideal) .f32 (constantI S_ 32 0#32)) (Shape.Idx.first h_S_) = 0 := by
  show (((0#32 : BitVec 32).toInt : ℝ) : EReal) = 0
  simp

/-- Entry (r, k) of the left operand: `inputs` for k < 20000, 0 in the appended columns. -/
theorem lhs_apply (c : Dev nD) (r : Fin 2048) (k : Fin 20480) :
    (Gen.V mi c main_v21 : S2048x20480.Idx → EReal) (ix2 r k)
      = (if h : k.val < 20000 then (mi ((c : Thread nD τ).loc main_arg0) : S2048x20000.Idx → EReal) (ix2 r (⟨k.val, h⟩ : Fin 20000)) else 0 : EReal) := by
  rw [lhs_eq]
  show pad S2048x20480 ![0, 0] ![0, 480] ![0, 0] (mi ((c : Thread nD τ).loc main_arg0))
      (sitofp (F := Ideal) .f32 (constantI S_ 32 0#32)) pads_S2048x20000_S2048x20480_000_04800 h_S_ (ix2 r k) = _
  by_cases h : k.val < 20000
  · rw [dif_pos h]
    refine pad_apply_of_inside _ _ _ _ _ pads_S2048x20000_S2048x20480_000_04800 h_S_ (ix2 r k) (ix2 r (⟨k.val, h⟩ : Fin 20000)) fun a => ?_
    match a with
    | ⟨0, _⟩ => show r.val = 0 + r.val * (0 + 1); omega
    | ⟨1, _⟩ => show k.val = 0 + k.val * (0 + 1); omega
  · rw [dif_neg h]
    refine (pad_apply_of_not_inside _ _ _ _ _ pads_S2048x20000_S2048x20480_000_04800 h_S_ (ix2 r k) (1 : Fin 2) ?_).trans padValue
    show ¬(0 ≤ k.val ∧ (k.val - 0) % (0 + 1) = 0 ∧ (k.val - 0) / (0 + 1) < 20000)
    omega

/-- Entry (k, q) of the right operand: the weight matrix for k < 20000, 0 in the appended rows. -/
theorem rhs_apply (c : Dev nD) (k : Fin 20480) (q : Fin 4096) :
    (Gen.V mi c main_v22 : S20480x4096.Idx → EReal) (ix2 k q)
      = (if h : k.val < 20000 then (weights (F := Ideal) (mi ((c : Thread nD τ).loc main_arg1)) (mi ((c : Thread nD τ).loc main_arg3)) : S20000x4096.Idx → EReal) (ix2 (⟨k.val, h⟩ : Fin 20000) q) else 0 : EReal) := by
  rw [rhs_eq]
  show pad S20480x4096 ![0, 0] ![480, 0] ![0, 0] (weights (mi ((c : Thread nD τ).loc main_arg1)) (mi ((c : Thread nD τ).loc main_arg3)))
      (sitofp (F := Ideal) .f32 (constantI S_ 32 0#32)) pads_S20000x4096_S20480x4096_04800_000 h_S_ (ix2 k q) = _
  by_cases h : k.val < 20000
  · rw [dif_pos h]
    refine pad_apply_of_inside _ _ _ _ _ pads_S20000x4096_S20480x4096_04800_000 h_S_ (ix2 k q) (ix2 (⟨k.val, h⟩ : Fin 20000) q) fun a => ?_
    match a with
    | ⟨0, _⟩ => show k.val = 0 + k.val * (0 + 1); omega
    | ⟨1, _⟩ => show q.val = 0 + q.val * (0 + 1); omega
  · rw [dif_neg h]
    refine (pad_apply_of_not_inside _ _ _ _ _ pads_S20000x4096_S20480x4096_04800_000 h_S_ (ix2 k q) (0 : Fin 2) ?_).trans padValue
    show ¬(0 ≤ k.val ∧ (k.val - 0) % (0 + 1) = 0 ∧ (k.val - 0) / (0 + 1) < 20000)
    omega

/-- Entry (0, q) of the bias row is `bias` at q. -/
theorem bias_apply (c : Dev nD) (q : Fin 4096) :
    (Gen.V mi c main_v23 : S1x4096.Idx → EReal) (ix2 (0 : Fin 1) q) = (mi ((c : Thread nD τ).loc main_arg2) : S4096.Idx → EReal) (ix1 q) := by
  rw [bias_eq]
  refine shapeCast_apply _ shapeCasts_S4096_S1x4096 (ix2 (0 : Fin 1) q) (ix1 q) ?_
  rw [Shape.rowMajor_val_two, Shape.rowMajor_val_one]
  show q.val = 0 * 4096 + q.val
  omega

end AtIdeal

end Cert.KernelIdeal.Arrays

end
-- ==== Proof.KernelBlocks.lean ====
/-
  The launch's result array, entry by entry, over the extended reals.

  The grid has 4 × 4 × 8 points; point t = (i·4 + j)·8 + k works on rows 512·i … of the result, columns 1024·j …,
  and on the k-th tile of 2560 positions of the contraction axis (padded to 20480). Within a run of eight points
  (fixed i, j) the accumulator after point k holds, at (p, q), the sum over the tiles 0 … k of the tile's sum of
  products — by induction on k from the three case lemmas. At the run's last point the output block is
  elu (accumulator + bias row), and that block is written back; these sixteen blocks tile the result array. Read
  through the blocks' positions in the operands, the eight tile sums are a sum over the padded axis tile by tile,
  whose padded positions contribute 0: the plain contraction over the 20000 positions of `inputs` and the weights.
-/
import proofs.«139215_j9337258902417_1_alg».proof.Proof.Gen.KernelIdeal.Value
import proofs.«139215_j9337258902417_1_alg».proof.Proof.KernelPieces
import proofs.«139215_j9337258902417_1_alg».proof.Proof.KernelEntries
import proofs.«139215_j9337258902417_1_alg».proof.Proof.KernelArrays
import proofs.«139215_j9337258902417_1_alg».proof.Proof.Spec
import proofs.«139215_j9337258902417_1_alg».proof.Proof.LibTileSums
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The operands and the bias row as the launch finds them, and a point's blocks of them, at their literal types. -/
abbrev lhs (c : Dev nD) : S2048x20480.Idx → EReal := V m c main_v21
abbrev rhs (c : Dev nD) : S20480x4096.Idx → EReal := V m c main_v22
abbrev biasRow (c : Dev nD) : S1x4096.Idx → EReal := V m c main_v23
abbrev lblk (c : Dev nD) (t : Fin cfg0.N) : S512x2560.Idx → EReal := iblk m c 0 t
abbrev rblk (c : Dev nD) (t : Fin cfg0.N) : S2560x1024.Idx → EReal := iblk m c 1 t
abbrev bblk (c : Dev nD) (t : Fin cfg0.N) : S1x1024.Idx → EReal := iblk m c 2 t

/-- The arguments at their literal types. -/
abbrev argA (c : Dev nD) : S2048x20000.Idx → EReal := m ((c : Thread nD τ).loc main_arg0)
abbrev argU (c : Dev nD) : S2000000.Idx → EReal := m ((c : Thread nD τ).loc main_arg1)
abbrev argB (c : Dev nD) : S4096.Idx → EReal := m ((c : Thread nD τ).loc main_arg2)
abbrev argI (c : Dev nD) : IVec S2000000x2 32 := m ((c : Thread nD τ).loc main_arg3)

/-- The weight matrix of the arguments. -/
abbrev argW (c : Dev nD) : S20000x4096.Idx → EReal := Arrays.weights (F := Ideal) (argU m c) (argI m c)

/-- The function the result array ends holding. -/
abbrev G (c : Dev nD) : S2048x4096.Idx → EReal := Cert.DenseElu.out (argA m c) (argW m c) (argB m c)

/-! ## Where a point's blocks lie -/

/-- The block indices of the four windows at point `t`, decided over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- Entry (p, l) of the left block at point `t` is entry (512·(t / 32) + p, 2560·(t % 8) + l) of the left operand. -/
theorem lblk_apply (c : Dev nD) (t : Fin cfg0.N) (p : Fin 512) (l : Fin 2560) (r : Fin 2048) (k : Fin 20480)
    (hr : r.val = t.val / 32 * 512 + p.val) (hk : k.val = t.val % 8 * 2560 + l.val) :
    lblk m c t (ix2 p l) = lhs m c (ix2 r k) := by
  obtain ⟨e0, e1, -⟩ := idx_facts t
  show V m c main_v21 (((cfg0.win 0).blk t).view.emb (ix2 p l)) = V m c main_v21 (ix2 r k)
  refine congrArg (V m c main_v21) (funext fun a => Fin.ext ?_)
  match a with
  | ⟨0, _⟩ => show win0_0.index t (0 : Fin 2) * 512 + 1 * p.val = r.val; omega
  | ⟨1, _⟩ => show win0_0.index t (1 : Fin 2) * 2560 + 1 * l.val = k.val; omega

/-- Entry (l, q) of the right block at point `t` is entry (2560·(t % 8) + l, 1024·(t / 8 % 4) + q) of the right operand. -/
theorem rblk_apply (c : Dev nD) (t : Fin cfg0.N) (l : Fin 2560) (q : Fin 1024) (k : Fin 20480) (s : Fin 4096)
    (hk : k.val = t.val % 8 * 2560 + l.val) (hs : s.val = t.val / 8 % 4 * 1024 + q.val) :
    rblk m c t (ix2 l q) = rhs m c (ix2 k s) := by
  obtain ⟨-, -, e2, e3, -⟩ := idx_facts t
  show V m c main_v22 (((cfg0.win 1).blk t).view.emb (ix2 l q)) = V m c main_v22 (ix2 k s)
  refine congrArg (V m c main_v22) (funext fun a => Fin.ext ?_)
  match a with
  | ⟨0, _⟩ => show win0_1.index t (0 : Fin 2) * 2560 + 1 * l.val = k.val; omega
  | ⟨1, _⟩ => show win0_1.index t (1 : Fin 2) * 1024 + 1 * q.val = s.val; omega

/-- Entry (0, q) of the bias block at point `t` is entry (0, 1024·(t / 8 % 4) + q) of the bias row. -/
theorem bblk_apply (c : Dev nD) (t : Fin cfg0.N) (q : Fin 1024) (s : Fin 4096)
    (hs : s.val = t.val / 8 % 4 * 1024 + q.val) :
    bblk m c t (ix2 (0 : Fin 1) q) = biasRow m c (ix2 (0 : Fin 1) s) := by
  obtain ⟨-, -, -, -, e4, e5, -⟩ := idx_facts t
  show V m c main_v23 (((cfg0.win 2).blk t).view.emb (ix2 (0 : Fin 1) q)) = V m c main_v23 (ix2 (0 : Fin 1) s)
  refine congrArg (V m c main_v23) (funext fun a => Fin.ext ?_)
  match a with
  | ⟨0, _⟩ => show win0_2.index t (0 : Fin 2) * 1 + 1 * 0 = 0; omega
  | ⟨1, _⟩ => show win0_2.index t (1 : Fin 2) * 1024 + 1 * q.val = s.val; omega

/-! ## The accumulator along a run of eight points -/

/-- The sum of products of point `t`'s two blocks at (p, q). -/
def tileSum (c : Dev nD) (t : Fin cfg0.N) (p : Fin 512) (q : Fin 1024) : EReal :=
  ∑ l : Fin 2560, lblk m c t (ix2 p l) * rblk m c t (ix2 l q)

/-- After the first point of a run the accumulator holds that point's tile sum (added to the cleared 0). -/
theorem acc_at_first (c : Dev nD) (t : Fin cfg0.N) (h0 : t.val % 8 = 0) (p : Fin 512) (q : Fin 1024) :
    (outsAt0 m c t.val t.isLt).2 (ix2 p q) = 0 + tileSum m c t p q := by
  have h1 : ¬t.val % 8 = 7 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) (ix2 p q)).trans ?_
  refine (Entries.step_apply _ (lblk m c t) (rblk m c t) p q).trans ?_
  rw [Entries.cleared_apply]
  rfl

/-- After any later point it holds what the point before left plus that point's tile sum. -/
theorem acc_at_later (c : Dev nD) (t : Fin cfg0.N) (h0 : ¬t.val % 8 = 0) (p : Fin 512) (q : Fin 1024) :
    (outsAt0 m c t.val t.isLt).2 (ix2 p q)
      = (outsAt0 m c (t.val - 1) (Nat.lt_of_le_of_lt (Nat.sub_le _ _) t.isLt)).2 (ix2 p q) + tileSum m c t p q := by
  by_cases h1 : t.val % 8 = 7
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2) (ix2 p q)).trans ?_
    exact Entries.step_apply _ (lblk m c t) (rblk m c t) p q
  · rw [outsAt0_B m c t h0 h1]
    dsimp only
    refine (congrFun (Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2) (ix2 p q)).trans ?_
    exact Entries.step_apply _ (lblk m c t) (rblk m c t) p q

/-- So `j` points into a run that starts at point `b` the accumulator holds the tile sums of the points b … b + j. -/
theorem acc_eq (c : Dev nD) (p : Fin 512) (q : Fin 1024) (b : ℕ) (hb : b % 8 = 0) :
    ∀ (j : ℕ) (h : b + j < cfg0.N), j < 8 →
      (outsAt0 m c (b + j) h).2 (ix2 p q)
        = ∑ kk : Fin (j + 1), tileSum m c ⟨b + kk.val, lt_of_le_of_lt (Nat.add_le_add_left (Nat.le_of_lt_succ kk.isLt) b) h⟩ p q
  | 0, h, _ => by
    refine (acc_at_first m c ⟨b + 0, h⟩ (by show (b + 0) % 8 = 0; omega) p q).trans ?_
    rw [zero_add, Fin.sum_univ_one]
    rfl
  | j + 1, h, hj => by
    refine (acc_at_later m c ⟨b + (j + 1), h⟩ (by show ¬(b + (j + 1)) % 8 = 0; omega) p q).trans ?_
    show (outsAt0 m c (b + j) (Nat.lt_of_succ_lt h)).2 (ix2 p q) + _ = _
    rw [acc_eq c p q b hb j (Nat.lt_of_succ_lt h) (Nat.lt_of_succ_lt hj),
      Fin.sum_univ_castSucc (f := fun kk : Fin (j + 1 + 1) => tileSum m c ⟨b + kk.val, lt_of_le_of_lt (Nat.add_le_add_left (Nat.le_of_lt_succ kk.isLt) b) h⟩ p q)]
    rfl

/-- At a run's last point the output block is elu of the new accumulator plus the bias block's row. -/
theorem out_at_last (c : Dev nD) (t : Fin cfg0.N) (h0 : ¬t.val % 8 = 0) (h1 : t.val % 8 = 7) (p : Fin 512) (q : Fin 1024) :
    (outsAt0 m c t.val t.isLt).1 (ix2 p q)
      = Cert.DenseElu.elu ((outsAt0 m c t.val t.isLt).2 (ix2 p q) + bblk m c t (ix2 (0 : Fin 1) q)) := by
  rw [outsAt0_C m c t h0 h1]
  dsimp only
  rw [Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2,
    Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2]
  exact Entries.finish_apply _ (bblk m c t) p q

end Cert.KernelIdeal.Blocks

end
-- ==== Proof.KernelResult.lean ====
/-
  The result array after the launch is  elu (inputs · weights + bias)  entry by entry.

  At the last point of a run of eight the accumulator's eight tile sums, read through the positions of the blocks in
  the padded operands, are the sum over the padded contraction axis tile by tile; the padded positions contribute
  0 · x = 0, so it is the contraction over the 20000 positions of the arguments. The block written back there is elu of
  that plus the bias entry; the sixteen written blocks tile the 2048 × 4096 array (the block that holds row r and
  column s is the one of the run i = r / 512, j = s / 1024), so the array ends holding the function everywhere.
-/
import proofs.«139215_j9337258902417_1_alg».proof.Proof.KernelBlocks

noncomputable section

namespace Cert.KernelIdeal.Result

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The accumulator at a run's last point is the contraction of row R of `inputs` with column Q of the weights. -/
theorem acc_last_eq (c : Dev nD) (t : Fin cfg0.N) (h1 : t.val % 8 = 7) (p : Fin 512) (q : Fin 1024) (R : Fin 2048) (Q : Fin 4096)
    (hR : R.val = t.val / 32 * 512 + p.val) (hQ : Q.val = t.val / 8 % 4 * 1024 + q.val) :
    (outsAt0 m c t.val t.isLt).2 (ix2 p q) = ∑ k : Fin 20000, argA m c (ix2 R k) * argW m c (ix2 k Q) := by
  obtain ⟨n, hn⟩ := t
  have hN : n < 128 := lt_of_lt_of_eq hn (show cfg0.N = 128 from N_0)
  dsimp only at h1 hR hQ
  obtain ⟨b, rfl⟩ : ∃ b, n = b + 7 := ⟨n - 7, by omega⟩
  have hb : b % 8 = 0 := by omega
  refine (acc_eq m c p q b hb 7 hn (by norm_num)).trans ?_
  -- the products over the padded axis
  let f : Fin 20480 → EReal := fun k => lhs m c (ix2 R k) * rhs m c (ix2 k Q)
  have hz : ∀ k : Fin 20480, 20000 ≤ k.val → f k = 0 := fun k hk => by
    have e : lhs m c (ix2 R k) = 0 := (Arrays.lhs_apply m c R k).trans (dif_neg (by omega))
    show lhs m c (ix2 R k) * rhs m c (ix2 k Q) = 0
    rw [e, zero_mul]
  refine Eq.trans ?_ ((Cert.DenseElu.sum_tiles_padded f hz).trans ?_)
  · refine Finset.sum_congr rfl fun kk _ => ?_
    have hkk : kk.val < 8 := kk.isLt
    refine Finset.sum_congr rfl fun l _ => ?_
    have hl : l.val < 2560 := l.isLt
    have e1 := lblk_apply m c ⟨b + kk.val, lt_of_le_of_lt (Nat.add_le_add_left (Nat.le_of_lt_succ kk.isLt) b) hn⟩ p l R
      ⟨kk.val * 2560 + l.val, by omega⟩ (by dsimp only; omega) (by dsimp only; omega)
    have e2 := rblk_apply m c ⟨b + kk.val, lt_of_le_of_lt (Nat.add_le_add_left (Nat.le_of_lt_succ kk.isLt) b) hn⟩ l q
      ⟨kk.val * 2560 + l.val, by omega⟩ Q (by dsimp only; omega) (by dsimp only; omega)
    exact congrArg₂ (· * ·) e1 e2
  · refine Finset.sum_congr rfl fun k _ => ?_
    have hk : k.val < 20000 := k.isLt
    have e1 : lhs m c (ix2 R (⟨k.val, by omega⟩ : Fin 20480)) = argA m c (ix2 R k) :=
      (Arrays.lhs_apply m c R ⟨k.val, by omega⟩).trans (dif_pos hk)
    have e2 : rhs m c (ix2 (⟨k.val, by omega⟩ : Fin 20480) Q) = argW m c (ix2 k Q) :=
      (Arrays.rhs_apply m c ⟨k.val, by omega⟩ Q).trans (dif_pos hk)
    exact congrArg₂ (· * ·) e1 e2

/-- Entry (p, q) of the block written at a run's last point is the function at the entry's place in the array. -/
theorem flushed_entry (c : Dev nD) (t : Fin cfg0.N) (h1 : t.val % 8 = 7) (j : S512x1024.Idx) :
    (outsAt0 m c t.val t.isLt).1 j = G m c (((cfg0.win 3).blk t).view.emb j) := by
  obtain ⟨p, q, rfl⟩ : ∃ (p : Fin 512) (q : Fin 1024), j = ix2 p q := ⟨j 0, j 1, eq_ix2 j⟩
  have hN : t.val < 128 := lt_of_lt_of_eq t.isLt (show cfg0.N = 128 from N_0)
  have h0 : ¬t.val % 8 = 0 := by omega
  have hp : p.val < 512 := p.isLt
  have hq : q.val < 1024 := q.isLt
  obtain ⟨-, -, -, -, -, -, e6, e7⟩ := idx_facts t
  let R : Fin 2048 := ⟨t.val / 32 * 512 + p.val, by omega⟩
  let Q : Fin 4096 := ⟨t.val / 8 % 4 * 1024 + q.val, by omega⟩
  have hemb : ((cfg0.win 3).blk t).view.emb (ix2 p q) = ix2 R Q := by
    funext a; apply Fin.ext
    match a with
    | ⟨0, _⟩ => show win0_3.index t (0 : Fin 2) * 512 + 1 * p.val = t.val / 32 * 512 + p.val; omega
    | ⟨1, _⟩ => show win0_3.index t (1 : Fin 2) * 1024 + 1 * q.val = t.val / 8 % 4 * 1024 + q.val; omega
  rw [hemb, out_at_last m c t h0 h1 p q, acc_last_eq m c t h1 p q R Q rfl rfl, bblk_apply m c t q Q rfl]
  show _ = Cert.DenseElu.entry (argA m c) (argW m c) (argB m c) R Q
  unfold Cert.DenseElu.entry
  exact congrArg (fun z => Cert.DenseElu.elu (_ + z)) (Arrays.bias_apply m c Q)

set_option maxRecDepth 1000000 in
/-- What a run's last point writes back is its block of the function. -/
theorem flushed_eq (c : Dev nD) (t : Fin cfg0.N) (hf : (cfg0.win 3).flush t = true) :
    (dats m 0 c).flushed 3 t = ((cfg0.win 3).blk t).view.read (Elt Ideal) (G m c) := by
  have h1 := (flush0_3 t).mp hf
  rw [Value.flushed3]
  funext j
  exact flushed_entry m c t h1 j

set_option maxRecDepth 262144 in
/-- An index of the array is in point `t`'s block iff each coordinate is in the block's range on its axis. -/
theorem mem_blk (t : Fin cfg0.N) (i : S2048x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v24).slice (win0_3.rect t)).set ↔ _
  rw [View.set_slice_whole, Rect.mem_set_unit]
  exact Iff.rfl

/-- Every entry of the array lies in the block some run's last point writes back. -/
theorem cover (i : S2048x4096.Idx) : ∃ t : Fin cfg0.N, (cfg0.win 3).flush t = true ∧ i ∈ ((cfg0.win 3).blk t).view.set := by
  have hi0 : (i 0).val < 2048 := (i 0).isLt
  have hi1 : (i 1).val < 4096 := (i 1).isLt
  have hN : cfg0.N = 128 := N_0
  let t : Fin cfg0.N := ⟨((i 0).val / 512 * 4 + (i 1).val / 1024) * 8 + 7, by omega⟩
  have ht : t.val = ((i 0).val / 512 * 4 + (i 1).val / 1024) * 8 + 7 := rfl
  obtain ⟨-, -, -, -, -, -, e6, e7⟩ := idx_facts t
  refine ⟨t, (flush0_3 t).mpr (by omega), ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the launch. -/
theorem final (c : Dev nD) : (dats m 0 c).arrAt 3 cfg0.N = G m c :=
  (dats m 0 c).arrAt_eq_of_cover 3 (G m c) (flushed_eq m c) cover

/-- Every weakly fair execution ends with the result array at  elu (inputs · weights + bias)  and the arguments unchanged. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefRun.lean ====
/-
  The reference program's run, written out: @main's twenty-eight host operations followed by the fifteen operations
  of the exponential linear unit it calls (the unit's own seven constants, comparisons and broadcasts, the three of
  the inner selection on a scalar zero, the exponential minus one, the scalar one and its broadcast, the product,
  and the outer selection), each callee operation over the buffers its call names. Every weakly fair execution
  terminates with the result buffer at one composed term of the four arguments' launch contents and the arguments
  unchanged.

  The composed term is kept in three layers: `weights` (the dense 20000 × 4096 matrix: a zero splat with the
  update vector added at the positions the two index columns name, each column first normalised — a negative
  index has the axis length added), `affine` (the product with the left operand plus the bias row laid over every
  row), and `eluTerm` (the unit, as the two selections and the exponential the program spells it with).
-/
import proofs.«139215_j9337258902417_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first twenty-four operations: the zero splat, the two index columns cut out, normalised and re-joined, and the
    scatter-add of the update vector into the splat. They end at the dense weight matrix. -/
abbrev opsW : List (HloOp τ sig (Elt F)) :=
  [ nullary main_cst (constant S_ .f32 0x00000000#32),
    unary main_cst main_v0 (broadcastInDim S20000x4096 ![] bcast_S_S20000x4096 : (⟨S_, .f32⟩ : BufTy).Contents (Elt F) → (⟨S20000x4096, .f32⟩ : BufTy).Contents (Elt F)),
    unary main_arg3 main_v1 ((extractStridedSlice S2000000x1 ![0, 0] · slices_S2000000x2_S2000000x1_0_0) : (⟨S2000000x2, .i32⟩ : BufTy).Contents (Elt F) → (⟨S2000000x1, .i32⟩ : BufTy).Contents (Elt F)),
    reshape main_v1 main_v2 rfl shapeCasts_S2000000x1_S2000000,
    unary main_arg3 main_v3 ((extractStridedSlice S2000000x1 ![0, 1] · slices_S2000000x2_S2000000x1_0_1) : (⟨S2000000x2, .i32⟩ : BufTy).Contents (Elt F) → (⟨S2000000x1, .i32⟩ : BufTy).Contents (Elt F)),
    reshape main_v3 main_v4 rfl shapeCasts_S2000000x1_S2000000,
    nullary main_c (constantI S_ 32 0#32),
    unary main_c main_v5 (broadcastInDim S2000000 ![] bcast_S_S2000000 : (⟨S_, .i32⟩ : BufTy).Contents (Elt F) → (⟨S2000000, .i32⟩ : BufTy).Contents (Elt F)),
    binary main_v2 main_v5 main_v6 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 20000#32),
    unary main_c_0 main_v7 (broadcastInDim S2000000 ![] bcast_S_S2000000 : (⟨S_, .i32⟩ : BufTy).Contents (Elt F) → (⟨S2000000, .i32⟩ : BufTy).Contents (Elt F)),
    binary main_v2 main_v7 main_v8 (addi : (⟨S2000000, .i32⟩ : BufTy).Contents (Elt F) → (⟨S2000000, .i32⟩ : BufTy).Contents (Elt F) → (⟨S2000000, .i32⟩ : BufTy).Contents (Elt F)),
    ternary main_v6 main_v8 main_v2 main_v9 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_1 (constantI S_ 32 0#32),
    unary main_c_1 main_v10 (broadcastInDim S2000000 ![] bcast_S_S2000000 : (⟨S_, .i32⟩ : BufTy).Contents (Elt F) → (⟨S2000000, .i32⟩ : BufTy).Contents (Elt F)),
    binary main_v4 main_v10 main_v11 (cmpi .slt : (⟨S2000000, .i32⟩ : BufTy).Contents (Elt F) → (⟨S2000000, .i32⟩ : BufTy).Contents (Elt F) → (⟨S2000000, .i1⟩ : BufTy).Contents (Elt F)),
    nullary main_c_2 (constantI S_ 32 4096#32),
    unary main_c_2 main_v12 (broadcastInDim S2000000 ![] bcast_S_S2000000 : (⟨S_, .i32⟩ : BufTy).Contents (Elt F) → (⟨S2000000, .i32⟩ : BufTy).Contents (Elt F)),
    binary main_v4 main_v12 main_v13 (addi : (⟨S2000000, .i32⟩ : BufTy).Contents (Elt F) → (⟨S2000000, .i32⟩ : BufTy).Contents (Elt F) → (⟨S2000000, .i32⟩ : BufTy).Contents (Elt F)),
    ternary main_v11 main_v13 main_v4 main_v14 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v9 main_v15 (broadcastInDim S2000000x1 ![0] bcast_S2000000_S2000000x1_0 : (⟨S2000000, .i32⟩ : BufTy).Contents (Elt F) → (⟨S2000000x1, .i32⟩ : BufTy).Contents (Elt F)),
    unary main_v14 main_v16 (broadcastInDim S2000000x1 ![0] bcast_S2000000_S2000000x1_0 : (⟨S2000000, .i32⟩ : BufTy).Contents (Elt F) → (⟨S2000000x1, .i32⟩ : BufTy).Contents (Elt F)),
    binary main_v15 main_v16 main_v17 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    ternary main_v0 main_v17 main_arg1 main_v18 ((fun x i u => Host.scatterAdd scatter_S20000x4096_S2000000x2_S2000000_n_01_01_1 x i u) : (⟨S20000x4096, .f32⟩ : BufTy).Contents (Elt F) → (⟨S2000000x2, .i32⟩ : BufTy).Contents (Elt F) → (⟨S2000000, .f32⟩ : BufTy).Contents (Elt F) → (⟨S20000x4096, .f32⟩ : BufTy).Contents (Elt F)) ]

/-- The last nineteen: the product with the left operand, the bias row laid over every row and added, then the unit's
    fifteen operations with its two selections unfolded at their call sites. -/
abbrev opsE : List (HloOp τ sig (Elt F)) :=
  [ binary main_arg0 main_v18 main_v19 ((fun l r => Host.dotGeneral dot_S2048x20000_S20000x4096_S2048x4096_1_0_0_1_n_n none l r) : (⟨S2048x20000, .f32⟩ : BufTy).Contents (Elt F) → (⟨S20000x4096, .f32⟩ : BufTy).Contents (Elt F) → (⟨S2048x4096, .f32⟩ : BufTy).Contents (Elt F)),
    unary main_arg2 main_v20 (broadcastInDim S1x4096 ![1] bcast_S4096_S1x4096_1 : (⟨S4096, .f32⟩ : BufTy).Contents (Elt F) → (⟨S1x4096, .f32⟩ : BufTy).Contents (Elt F)),
    unary main_v20 main_v21 (broadcastInDim S2048x4096 ![0, 1] bcast_S1x4096_S2048x4096_0_1 : (⟨S1x4096, .f32⟩ : BufTy).Contents (Elt F) → (⟨S2048x4096, .f32⟩ : BufTy).Contents (Elt F)),
    binary main_v19 main_v21 main_v22 (addf : (⟨S2048x4096, .f32⟩ : BufTy).Contents (Elt F) → (⟨S2048x4096, .f32⟩ : BufTy).Contents (Elt F) → (⟨S2048x4096, .f32⟩ : BufTy).Contents (Elt F)),
    TRef.nullary main_call0.cst (constant S_ .f32 0x00000000#32),
    TRef.unary main_call0.cst main_call0.v0 (broadcastInDim S2048x4096 ![] bcast_S_S2048x4096),
    TRef.binary (.of main_v22) main_call0.v0 main_call0.v1 (cmpf .ogt),
    TRef.nullary main_call0.cst_0 (constant S_ .f32 0x00000000#32),
    TRef.unary main_call0.cst_0 main_call0.v2 (broadcastInDim S2048x4096 ![] bcast_S_S2048x4096),
    TRef.binary (.of main_v22) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S2048x4096 ![] bcast_S_S2048x4096),
    TRef.ternary main_call0.v3 main_call0.call0.v1 (.of main_v22) main_call0.call0.v2 select,
    TRef.unary main_call0.call0.v2 main_call0.v5 Host.expm1,
    TRef.nullary main_call0.cst_2 (constant S_ .f32 0x3F800000#32),
    TRef.unary main_call0.cst_2 main_call0.v6 (broadcastInDim S2048x4096 ![] bcast_S_S2048x4096),
    TRef.binary main_call0.v6 main_call0.v5 main_call0.v7 mulf,
    TRef.ternary main_call0.v1 (.of main_v22) main_call0.v7 main_call0.call1.v0 select ]

/-- The forty-three operations in order. -/
abbrev ops : List (HloOp τ sig (Elt F)) := opsW ++ opsE

-- forty-three binds re-associated: the rewrite under the chain recurses once per statement
set_option maxRecDepth 1024 in
/-- @main is that straight line: the unit's and the two selections' definitions unfolded at their calls and the
    records at their fields, both sides are one chain of steps once sequencing is reassociated. -/
theorem main_eq (c : Dev nD) : main (F := F) c = seq ops := by
  simp only [main, fn_elu.body, fn_where.body, fn_where_0.body, ops, opsW, opsE, List.cons_append, List.nil_append, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem opsW_sub : (opsW : List (HloOp τ sig (Elt F))).Forall fun op => op.bufs ⊆ tcRefs τ sig :=
  ⟨nullary_bufs_sub .., unary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..⟩

theorem opsE_sub : (opsE : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

theorem ops_sub : (ops : List (HloOp τ sig (Elt F))).Forall fun op => op.bufs ⊆ tcRefs τ sig :=
  List.forall_append.mpr ⟨opsW_sub, opsE_sub⟩

/-! ## The composed term -/

/-- One index column made a valid position on an axis of length `n`: column `k` of the index table as a vector,
    with `n` added where the entry is negative. -/
def normCol (idx : IVec S2000000x2 32) (k : ℕ) (hs : S2000000x2.Slices ![0, k] S2000000x1) (n : BitVec 32) : IVec S2000000 32 :=
  select
    (cmpi .slt (shapeCast S2000000 (extractStridedSlice S2000000x1 ![0, k] idx hs) shapeCasts_S2000000x1_S2000000)
      (broadcastInDim S2000000 ![] bcast_S_S2000000 (constantI S_ 32 0#32)))
    (addi (shapeCast S2000000 (extractStridedSlice S2000000x1 ![0, k] idx hs) shapeCasts_S2000000x1_S2000000)
      (broadcastInDim S2000000 ![] bcast_S_S2000000 (constantI S_ 32 n)))
    (shapeCast S2000000 (extractStridedSlice S2000000x1 ![0, k] idx hs) shapeCasts_S2000000x1_S2000000)

/-- the dense weight matrix as the reference builds it: a zero splat of 20000 × 4096 with the update vector added at
    the positions named by the two index columns, each normalised to its axis and the two re-joined side by side -/
def weights (u : FVec F S2000000 .f32) (idx : IVec S2000000x2 32) : FVec F S20000x4096 .f32 :=
  Host.scatterAdd scatter_S20000x4096_S2000000x2_S2000000_n_01_01_1
    (broadcastInDim S20000x4096 ![] bcast_S_S20000x4096 (constant S_ .f32 0x00000000#32))
    (concatenate S2000000x2 1
      [⟨S2000000x1, broadcastInDim S2000000x1 ![0] bcast_S2000000_S2000000x1_0 (normCol idx 0 slices_S2000000x2_S2000000x1_0_0 20000#32)⟩,
       ⟨S2000000x1, broadcastInDim S2000000x1 ![0] bcast_S2000000_S2000000x1_0 (normCol idx 1 slices_S2000000x2_S2000000x1_0_1 4096#32)⟩]
      concatenates_S2000000x1_S2000000x1_S2000000x2_d1)
    u

/-- The product of the left operand with a weight matrix plus the bias row laid over every row. -/
def affine (A : FVec F S2048x20000 .f32) (W : FVec F S20000x4096 .f32) (b : FVec F S4096 .f32) : FVec F S2048x4096 .f32 :=
  addf (Host.dotGeneral dot_S2048x20000_S20000x4096_S2048x4096_1_0_0_1_n_n none A W)
    (broadcastInDim S2048x4096 ![0, 1] bcast_S1x4096_S2048x4096_0_1 (broadcastInDim S1x4096 ![1] bcast_S4096_S1x4096_1 b))

/-- The exponential linear unit as the program spells it: where `z > 0` take `z`, elsewhere one times the exponential minus one
    of (zero where `z > 0`, else `z`). -/
def eluTerm (z : FVec F S2048x4096 .f32) : FVec F S2048x4096 .f32 :=
  select (cmpf .ogt z (broadcastInDim S2048x4096 ![] bcast_S_S2048x4096 (constant S_ .f32 0x00000000#32)))
    z
    (mulf (broadcastInDim S2048x4096 ![] bcast_S_S2048x4096 (constant S_ .f32 0x3F800000#32))
      (Host.expm1
        (select (cmpf .ogt z (broadcastInDim S2048x4096 ![] bcast_S_S2048x4096 (constant S_ .f32 0x00000000#32)))
          (broadcastInDim S2048x4096 ![] bcast_S_S2048x4096 (id (constant S_ .f32 0x00000000#32)))
          z)))

/-- the reference's result as one term of the four arguments, with weights kept folded -/
def result (A : FVec F S2048x20000 .f32) (u : FVec F S2000000 .f32) (b : FVec F S4096 .f32) (idx : IVec S2000000x2 32) :
    FVec F S2048x4096 .f32 :=
  eluTerm (affine A (weights u idx) b)

/-! ## The run -/

/-- Two lines run one after the other leave what the second leaves from what the first left. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- After the first twenty-four operations the scatter-add's buffer holds the dense weight matrix of the update vector and the
    index table. -/
theorem stageW (V : Valuation τ sig (Elt F)) :
    after opsW V (main_v18 : DevRef τ sig) = weights (V (main_arg1 : DevRef τ sig)) (V (main_arg3 : DevRef τ sig)) := by
  after_results
  rfl

theorem stageW_arg0 (V : Valuation τ sig (Elt F)) : after opsW V (main_arg0 : DevRef τ sig) = V (main_arg0 : DevRef τ sig) := by
  after_results_simp
theorem stageW_arg1 (V : Valuation τ sig (Elt F)) : after opsW V (main_arg1 : DevRef τ sig) = V (main_arg1 : DevRef τ sig) := by
  after_results_simp
theorem stageW_arg2 (V : Valuation τ sig (Elt F)) : after opsW V (main_arg2 : DevRef τ sig) = V (main_arg2 : DevRef τ sig) := by
  after_results_simp
theorem stageW_arg3 (V : Valuation τ sig (Elt F)) : after opsW V (main_arg3 : DevRef τ sig) = V (main_arg3 : DevRef τ sig) := by
  after_results_simp

/-- After the last nineteen operations, from any contents, the result buffer holds the unit of the affine term of the left
    operand's, the weight matrix's and the bias row's buffers. -/
theorem stageE (V : Valuation τ sig (Elt F)) :
    after opsE V (main_v23 : DevRef τ sig)
      = eluTerm (affine (V (main_arg0 : DevRef τ sig)) (V (main_v18 : DevRef τ sig)) (V (main_arg2 : DevRef τ sig))) := by
  after_results_simp <;> (try simp only [TRef.ofBuf, TRef.toBuf, cast_eq]) <;> rfl

theorem stageE_arg0 (V : Valuation τ sig (Elt F)) : after opsE V (main_arg0 : DevRef τ sig) = V (main_arg0 : DevRef τ sig) := by
  after_results_simp
theorem stageE_arg1 (V : Valuation τ sig (Elt F)) : after opsE V (main_arg1 : DevRef τ sig) = V (main_arg1 : DevRef τ sig) := by
  after_results_simp
theorem stageE_arg2 (V : Valuation τ sig (Elt F)) : after opsE V (main_arg2 : DevRef τ sig) = V (main_arg2 : DevRef τ sig) := by
  after_results_simp
theorem stageE_arg3 (V : Valuation τ sig (Elt F)) : after opsE V (main_arg3 : DevRef τ sig) = V (main_arg3 : DevRef τ sig) := by
  after_results_simp

/-- The whole line at the result buffer: the two stages composed. -/
theorem out_eq (V : Valuation τ sig (Elt F)) :
    after ops V (main_v23 : DevRef τ sig)
      = result (V (main_arg0 : DevRef τ sig)) (V (main_arg1 : DevRef τ sig)) (V (main_arg2 : DevRef τ sig)) (V (main_arg3 : DevRef τ sig)) := by
  rw [after_two, stageE, stageW, stageW_arg0, stageW_arg2]
  rfl

theorem arg0_eq (V : Valuation τ sig (Elt F)) : after ops V (main_arg0 : DevRef τ sig) = V (main_arg0 : DevRef τ sig) := by
  rw [after_two, stageE_arg0, stageW_arg0]
theorem arg1_eq (V : Valuation τ sig (Elt F)) : after ops V (main_arg1 : DevRef τ sig) = V (main_arg1 : DevRef τ sig) := by
  rw [after_two, stageE_arg1, stageW_arg1]
theorem arg2_eq (V : Valuation τ sig (Elt F)) : after ops V (main_arg2 : DevRef τ sig) = V (main_arg2 : DevRef τ sig) := by
  rw [after_two, stageE_arg2, stageW_arg2]
theorem arg3_eq (V : Valuation τ sig (Elt F)) : after ops V (main_arg3 : DevRef τ sig) = V (main_arg3 : DevRef τ sig) := by
  rw [after_two, stageE_arg3, stageW_arg3]

/-- On every device, for any float values, from any memory with zero counters: every weakly fair execution of
    @main terminates with the result at the composed term of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefValue.lean ====
/-
  The reference's result read entry by entry over the extended reals.

  Entry (p, q) of the composed term is the exponential linear unit of  z = (∑ k < 20000, A (p, k) · W (k, q)) + b q,
  with W the dense weight matrix, kept folded throughout. Three readings give it:

    * the product with the plain dimension numbers (contract axis 1 of the left operand with axis 0 of the right) read at
      (p, q) is the sum over the contracted coordinate of the products of the entries;
    * the bias row taken to shape [1, 4096] along axis 1 and then laid over [2048, 4096] along axes 0 and 1 reads, at (p, q),
      the row's entry q;
    * the unit as the program spells it, select (z > 0) z (1 · expm1 (select (z > 0) 0 z)), is  z  where the comparison's bit is
      set and  exp z − 1  where it is clear: a set bit picks z outright; a clear one makes the inner selection z, the
      exponential minus one  exp z − 1, and the factor one drops. No term is asked to be finite.
-/
import proofs.«139215_j9337258902417_1_alg».proof.Proof.RefRun
import proofs.«139215_j9337258902417_1_alg».proof.Proof.Spec
import proofs.«139215_j9337258902417_1_alg».proof.Proof.LibKeepdims
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- The reference's dimension numbers are the plain ones of a 2048 × 20000 by 20000 × 4096 product. -/
theorem dot_eq_plain :
    dot_S2048x20000_S20000x4096_S2048x4096_1_0_0_1_n_n = DotDims.plain 2048 20000 4096 := rfl

/-- The bias row taken to [1, 4096] and laid over [2048, 4096] reads, at (p, q), the row's entry q. -/
theorem biasRows_apply {α : Type} (b : S4096.Idx → α) (p : Fin 2048) (q : Fin 4096) :
    broadcastInDim S2048x4096 ![0, 1] bcast_S1x4096_S2048x4096_0_1 (broadcastInDim S1x4096 ![1] bcast_S4096_S1x4096_1 b) (ix2 p q)
      = b (ix1 q) := by
  refine (broadcastInDim_apply ![0, 1] bcast_S1x4096_S2048x4096_0_1 _ (ix2 p q) (ix2 (0 : Fin 1) q) fun ax => ?_).trans ?_
  · match ax with
    | ⟨0, _⟩ => rfl
    | ⟨1, _⟩ => rfl
  · refine broadcastInDim_apply ![1] bcast_S4096_S1x4096_1 b (ix2 (0 : Fin 1) q) (ix1 q) fun ax => ?_
    match ax with
    | ⟨0, _⟩ => rfl

/-- The affine term at (p, q): the contraction of row p of the left operand with column q of the weight matrix, plus the
    bias row's entry q. -/
theorem affine_apply (A : FVec Ideal S2048x20000 .f32) (W : FVec Ideal S20000x4096 .f32) (b : FVec Ideal S4096 .f32)
    (p : Fin 2048) (q : Fin 4096) :
    affine A W b (ix2 p q) = (∑ k : Fin 20000, A (ix2 p k) * W (ix2 k q)) + b (ix1 q) := by
  unfold affine
  rw [addf_apply, biasRows_apply b p q,
    Cert.LibKeepdims.dotGeneral_plain_apply dot_S2048x20000_S20000x4096_S2048x4096_1_0_0_1_n_n dot_eq_plain none A W p q]

/-- A scalar constant laid over [2048, 4096] reads, at every index, the extended real its word encodes. -/
theorem splat_apply (w : BitVec 32) (j : S2048x4096.Idx) :
    broadcastInDim S2048x4096 ![] bcast_S_S2048x4096 (constant (F := Ideal) S_ .f32 w) j = Ideal.ofBits .f32 w :=
  broadcastInDim_scalar_apply bcast_S_S2048x4096 (constant (F := Ideal) S_ .f32 w) j

/-- The unit as the program spells it, at any index, is the exponential linear unit of the entry there. -/
theorem eluTerm_apply (z : FVec Ideal S2048x4096 .f32) (j : S2048x4096.Idx) :
    eluTerm z j = Cert.DenseElu.elu (z j) := by
  unfold eluTerm Cert.DenseElu.elu
  simp only [select_apply, cmpf_apply, mulf_apply, id, Host.expm1, Ideal.hostUnary_expm1_def, Ideal.cmpf_def]
  rw [splat_apply, splat_apply, Ideal.ofBits_zero_f32, Ideal.ofBits_one_f32]
  by_cases h : Ideal.cmp .ogt (z j) 0 = 1#1
  · rw [h, select_one, select_one]
  · rw [eq_zero_of_ne_one h, select_zero, select_zero, select_zero, one_mul]

/-- The reference's result is the function both programs compute, at the dense weight matrix. -/
theorem result_eq (A : FVec Ideal S2048x20000 .f32) (u : FVec Ideal S2000000 .f32) (b : FVec Ideal S4096 .f32) (idx : IVec S2000000x2 32) :
    result (F := Ideal) A u b idx = Cert.DenseElu.out A (weights u idx) b := by
  funext j
  obtain ⟨p, q, rfl⟩ : ∃ (p : Fin 2048) (q : Fin 4096), j = ix2 p q := ⟨j 0, j 1, eq_ix2 j⟩
  rw [Cert.DenseElu.out_apply]
  unfold result Cert.DenseElu.entry
  rw [eluTerm_apply, affine_apply]

end Cert.ReferenceIdeal.RefValue

end
-- ==== Proof.lean ====
/-
  The kernel program — a scatter-add on the host builds a dense 20000 × 4096 weight matrix, both operands are
  zero-padded along the contraction axis to 20480 and narrowed, and one launch over a 4 × 4 × 8 grid accumulates
  512 × 1024 output tiles over eight contraction tiles of 2560, adds the bias and applies
  elu z = (z if z > 0 else exp z − 1) — against the reference  elu (inputs · weights + bias).

  Over the extended reals both end at the same function of the four arguments,
      out[r, s] = elu ( (∑ k < 20000, inputs[r, k] · weights[k, s]) + bias[s] ),
  the weights being the same host operations of `kernel_vector` and `nonzero_ind` in both programs:
    * the kernel's eight tile sums regroup the sum over the padded axis, whose padded positions contribute 0;
    * the reference's  1 · expm1 (z where z ≤ 0)  is  exp z − 1  there, and both pick z where z > 0.
  No step needs a finite term, so the precondition is not opened. The ideal pass rewrote nothing, so the
  idealization claim is trivial; the two kernel frames are the generated ones, the reference's frame is its run
  with the result dropped.
-/
import proofs.«139215_j9337258902417_1_alg».proof.Defs
import proofs.«139215_j9337258902417_1_alg».proof.Proof.Gen.Kernel
import proofs.«139215_j9337258902417_1_alg».proof.Proof.Gen.Kernel.Frame
import proofs.«139215_j9337258902417_1_alg».proof.Proof.Gen.KernelIdeal
import proofs.«139215_j9337258902417_1_alg».proof.Proof.Gen.KernelIdeal.Frame
import proofs.«139215_j9337258902417_1_alg».proof.Proof.Gen.ReferenceIdeal
import proofs.«139215_j9337258902417_1_alg».proof.Proof.Gen.Pre_finite_inputs
import proofs.«139215_j9337258902417_1_alg».proof.Proof.KernelResult
import proofs.«139215_j9337258902417_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs build the weight matrix by the same operations of the same two arguments. -/
theorem weights_eq (u : FVec Ideal Cert.ReferenceIdeal.S2000000 .f32) (idx : IVec Cert.ReferenceIdeal.S2000000x2 32) :
    Cert.ReferenceIdeal.RefValue.weights (F := Ideal) u idx = Cert.KernelIdeal.Arrays.weights (F := Ideal) u idx := rfl

/-- From memories that agree on the arguments both programs end with the result array at the same function. -/
theorem algebraic : Cert.algebraic_KernelIdeal_ReferenceIdeal := by
  intro m ρ m' ρ' _ hagree
  refine ⟨fun c => Cert.KernelIdeal.Blocks.G m c, Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2, Cert.ReferenceIdeal.RefValue.result_eq, weights_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
